-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x32x32x128 : Shape := ⟨4, ![16, 32, 32, 128]⟩
abbrev S32x128 : Shape := ⟨2, ![32, 128]⟩
abbrev S32 : Shape := ⟨1, ![32]⟩
abbrev S_ : Shape := ⟨0, ![]⟩

class Facts : Prop where
  bcast_S_S16x32x32x128 : S_.BroadcastsInDim S16x32x32x128 (![] : Fin 0 → Fin S16x32x32x128.rank)
  reducesTo_S16x32x32x128_S_d0_1_2_3 : S16x32x32x128.ReducesTo [0, 1, 2, 3] S_
  h_S_ : 0 < S_.numel
  bcast_S_S32x128 : S_.BroadcastsInDim S32x128 (![] : Fin 0 → Fin S32x128.rank)
  reducesTo_S32x128_S_d0_1 : S32x128.ReducesTo [0, 1] S_
  bcast_S_S32 : S_.BroadcastsInDim S32 (![] : Fin 0 → Fin S32.rank)
  reducesTo_S32_S_d0 : S32.ReducesTo [0] S_

variable [Facts]

def fn {F : FTy → Type} [FloatOps F] (main_arg0 : FVec F S16x32x32x128 .f32) (main_arg1 : FVec F S32x128 .f32) (main_arg2 : FVec F S32 .f32) : IVec S_ 1 :=
  let main_v0 : FVec F S16x32x32x128 .f32 := Host.absf main_arg0
  let main_cst : FVec F S_ .f32 := constant S_ .f32 0x7F800000#32
  let main_v1 : FVec F S16x32x32x128 .f32 := broadcastInDim S16x32x32x128 ![] bcast_S_S16x32x32x128 main_cst
  let main_v2 : IVec S16x32x32x128 1 := cmpf .olt main_v0 main_v1
  let main_c : IVec S_ 1 := constantI S_ 1 1#1
  let main_v3 : IVec S_ 1 := (fun x v => Host.reduce IntOp.andi x v reducesTo_S16x32x32x128_S_d0_1_2_3 h_S_) main_v2 main_c
  let main_v4 : FVec F S32x128 .f32 := Host.absf main_arg1
  let main_cst_0 : FVec F S_ .f32 := constant S_ .f32 0x7F800000#32
  let main_v5 : FVec F S32x128 .f32 := broadcastInDim S32x128 ![] bcast_S_S32x128 main_cst_0
  let main_v6 : IVec S32x128 1 := cmpf .olt main_v4 main_v5
  let main_c_1 : IVec S_ 1 := constantI S_ 1 1#1
  let main_v7 : IVec S_ 1 := (fun x v => Host.reduce IntOp.andi x v reducesTo_S32x128_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  main_v13
-- ==== Kernel.lean ====
abbrev S16x32x32x128 : Shape := ⟨4, ![16, 32, 32, 128]⟩
abbrev S32x128 : Shape := ⟨2, ![32, 128]⟩
abbrev S32 : Shape := ⟨1, ![32]⟩
abbrev S16x1024x128 : Shape := ⟨3, ![16, 1024, 128]⟩
abbrev S_ : Shape := ⟨0, ![]⟩
abbrev S16x32x128 : Shape := ⟨3, ![16, 32, 128]⟩
abbrev S1x1024x128 : Shape := ⟨3, ![1, 1024, 128]⟩
abbrev S1x32x128 : Shape := ⟨3, ![1, 32, 128]⟩
abbrev S1024x128 : Shape := ⟨2, ![1024, 128]⟩
abbrev S128x32 : Shape := ⟨2, ![128, 32]⟩
abbrev S1024x32 : Shape := ⟨2, ![1024, 32]⟩
abbrev S1024 : Shape := ⟨1, ![1024]⟩
abbrev S1024x1 : Shape := ⟨2, ![1024, 1]⟩
abbrev S1x32 : Shape := ⟨2, ![1, 32]⟩
abbrev S32x1024 : Shape := ⟨2, ![32, 1024]⟩
abbrev S32x1 : Shape := ⟨2, ![32, 1]⟩

abbrev nBuf : Space → Nat
  | .hbm => 8
  | .vmem => 7
  | .smem => 0
  | _ => 0

abbrev bufTy : (tb : Table) → Fin (tcTables nBuf tb) → BufTy
  | .hbm, ⟨0, _⟩ => ⟨S16x32x32x128, .f32⟩
  | .hbm, ⟨1, _⟩ => ⟨S32x128, .f32⟩
  | .hbm, ⟨2, _⟩ => ⟨S32, .f32⟩
  | .hbm, ⟨3, _⟩ => ⟨S16x1024x128, .f32⟩
  | .hbm, ⟨4, _⟩ => ⟨S32x128, .f32⟩
  | .hbm, ⟨5, _⟩ => ⟨S_, .f32⟩
  | .hbm, ⟨6, _⟩ => ⟨S32, .f32⟩
  | .hbm, ⟨7, _⟩ => ⟨S16x32x128, .f32⟩
  | .local _ .vmem, ⟨0, _⟩ => ⟨S1x1024x128, .f32⟩
  | .local _ .vmem, ⟨1, _⟩ => ⟨S1x1024x128, .f32⟩
  | .local _ .vmem, ⟨2, _⟩ => ⟨S32x128, .f32⟩
  | .local _ .vmem, ⟨3, _⟩ => ⟨S32, .f32⟩
  | .local _ .vmem, ⟨4, _⟩ => ⟨S32, .f32⟩
  | .local _ .vmem, ⟨5, _⟩ => ⟨S1x32x128, .f32⟩
  | .local _ .vmem, ⟨6, _⟩ => ⟨S1x32x128, .f32⟩
  | _, _ => ⟨S16x32x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x32x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S16x32x32x128_S16x1024x128 : S16x32x32x128.ShapeCasts S16x1024x128
  reducesTo_S32x128_S32_d1 : S32x128.ReducesTo [1] S32
  h_S_ : 0 < S_.numel
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  inb_S32x128_S32x128_0_0 : ∀ a, (![0, 0] : Fin 2 → Nat) a + S32x128.size a ≤ S32x128.size a
  h_S32x128 : 0 < S32x128.numel
  inb_S32_S32_0 : ∀ a, (![0] : Fin 1 → Nat) a + S32.size a ≤ S32.size a
  h_S32 : 0 < S32.numel
  shapeCasts_S32_S32 : S32.ShapeCasts S32
  bitsLt_bf16_f32 : FTy.bits .bf16 < FTy.bits .f32
  transposes_S32x128_p1_0_S128x32 : S32x128.Transposes [1, 0] S128x32
  reduces_S1024x128_S1024 : S1024x128.Reduces [1] S1024
  shapeCasts_S1024_S1024x1 : S1024.ShapeCasts S1024x1
  shapeCasts_S32_S1x32 : S32.ShapeCasts S1x32
  broadcasts_S1024x1_S1024x32 : S1024x1.Broadcasts S1024x32
  broadcasts_S1x32_S1024x32 : S1x32.Broadcasts S1024x32
  reduces_S1024x32_S1024 : S1024x32.Reduces [1] S1024
  transposes_S1024x32_p1_0_S32x1024 : S1024x32.Transposes [1, 0] S32x1024
  reduces_S1024x32_S32 : S1024x32.Reduces [0] S32
  shapeCasts_S32_S32x1 : S32.ShapeCasts S32x1
  broadcasts_S32x1_S32x128 : S32x1.Broadcasts S32x128
  inb_S1x32x128_S1x32x128_0_0_0 : ∀ a, (![0, 0, 0] : Fin 3 → Nat) a + S1x32x128.size a ≤ S1x32x128.size a
  h_S1x32x128 : 0 < S1x32x128.numel
  shapeCasts_S1x32x128_S32x128 : S1x32x128.ShapeCasts S32x128
  shapeCasts_S32x128_S1x32x128 : S32x128.ShapeCasts S1x32x128
  dot_S1024x128_S128x32_S1024x32_1_0_0_1_n_n_wf : DotDims.WF S1024x128 S128x32 S1024x32 [1] [0] [0] [1] [] []
  dot_S32x1024_S1024x128_S32x128_1_0_0_1_n_n_wf : DotDims.WF S32x1024 S1024x128 S32x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x128.size a ≤ S16x1024x128.size a
  hwx0_0 : ∀ i : grid0.Coords, EltTy.bits .f32 = 32 ∨ (Rect.block (s := S16x1024x128) S1x1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x128.size a ≤ S32x128.size a
  hwx0_1 : ∀ i : grid0.Coords, EltTy.bits .f32 = 32 ∨ (Rect.block (s := S32x128) S32x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32.size a ≤ S32.size a
  hwx0_2 : ∀ i : grid0.Coords, EltTy.bits .f32 = 32 ∨ (Rect.block (s := S32) S32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32.size a ≤ S32.size a
  hwx0_3 : ∀ i : grid0.Coords, EltTy.bits .f32 = 32 ∨ (Rect.block (s := S32) S32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x32x128.size a ≤ S16x32x128.size a
  hwx0_4 : ∀ i : grid0.Coords, EltTy.bits .f32 = 32 ∨ (Rect.block (s := S16x32x128) S1x32x128.size (cc0_transform_4 i) (hinb0_4 i)).WholeWords (EltTy.packing .f32)

variable [Facts₀]

def dot_S1024x128_S128x32_S1024x32_1_0_0_1_n_n : DotDims S1024x128 S128x32 S1024x32 where
  lhsContracting := [1]
  rhsContracting := [0]
  lhsNonContracting := [0]
  rhsNonContracting := [1]
  lhsBatch := []
  rhsBatch := []
  wf := dot_S1024x128_S128x32_S1024x32_1_0_0_1_n_n_wf
def dot_S32x1024_S1024x128_S32x128_1_0_0_1_n_n : DotDims S32x1024 S1024x128 S32x128 where
  lhsContracting := [1]
  rhsContracting := [0]
  lhsNonContracting := [0]
  rhsNonContracting := [1]
  lhsBatch := []
  rhsBatch := []
  wf := dot_S32x1024_S1024x128_S32x128_1_0_0_1_n_n_wf

abbrev win0_0 : Pipeline.Window sig grid0 :=
  Pipeline.Window.ofSpec (Memref.whole main_v0) S1x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x32x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x32x32x128 : Shape := ⟨4, ![16, 32, 32, 128]⟩
abbrev S32x128 : Shape := ⟨2, ![32, 128]⟩
abbrev S32 : Shape := ⟨1, ![32]⟩
abbrev S16x1024x128 : Shape := ⟨3, ![16, 1024, 128]⟩
abbrev S_ : Shape := ⟨0, ![]⟩
abbrev S16x1024 : Shape := ⟨2, ![16, 1024]⟩
abbrev S16x1024x1 : Shape := ⟨3, ![16, 1024, 1]⟩
abbrev S16x1024x32 : Shape := ⟨3, ![16, 1024, 32]⟩
abbrev S1x1x32 : Shape := ⟨3, ![1, 1, 32]⟩
abbrev S16x32x128 : Shape := ⟨3, ![16, 32, 128]⟩
abbrev S16x32 : Shape := ⟨2, ![16, 32]⟩
abbrev S16x32x1 : Shape := ⟨3, ![16, 32, 1]⟩
abbrev S1x32x128 : Shape := ⟨3, ![1, 32, 128]⟩

abbrev nBuf : Space → Nat
  | .hbm => 46
  | .vmem => 0
  | .smem => 0
  | _ => 0

abbrev bufTy : (tb : Table) → Fin (tcTables nBuf tb) → BufTy
  | .hbm, ⟨0, _⟩ => ⟨S16x32x32x128, .f32⟩
  | .hbm, ⟨1, _⟩ => ⟨S32x128, .f32⟩
  | .hbm, ⟨2, _⟩ => ⟨S32, .f32⟩
  | .hbm, ⟨3, _⟩ => ⟨S16x1024x128, .f32⟩
  | .hbm, ⟨4, _⟩ => ⟨S16x1024x128, .f32⟩
  | .hbm, ⟨5, _⟩ => ⟨S_, .f32⟩
  | .hbm, ⟨6, _⟩ => ⟨S16x1024, .f32⟩
  | .hbm, ⟨7, _⟩ => ⟨S16x1024x1, .f32⟩
  | .hbm, ⟨8, _⟩ => ⟨S32x128, .f32⟩
  | .hbm, ⟨9, _⟩ => ⟨S_, .f32⟩
  | .hbm, ⟨10, _⟩ => ⟨S32, .f32⟩
  | .hbm, ⟨11, _⟩ => ⟨S16x1024x32, .f32⟩
  | .hbm, ⟨12, _⟩ => ⟨S1x1x32, .f32⟩
  | .hbm, ⟨13, _⟩ => ⟨S_, .f32⟩
  | .hbm, ⟨14, _⟩ => ⟨S16x1024x32, .f32⟩
  | .hbm, ⟨15, _⟩ => ⟨S16x1024x32, .f32⟩
  | .hbm, ⟨16, _⟩ => ⟨S16x1024x32, .f32⟩
  | .hbm, ⟨17, _⟩ => ⟨S16x1024x32, .f32⟩
  | .hbm, ⟨18, _⟩ => ⟨S1x1x32, .f32⟩
  | .hbm, ⟨19, _⟩ => ⟨S16x1024x32, .f32⟩
  | .hbm, ⟨20, _⟩ => ⟨S16x1024x32, .f32⟩
  | .hbm, ⟨21, _⟩ => ⟨S16x1024x32, .f32⟩
  | .hbm, ⟨22, _⟩ => ⟨S16x1024x32, .f32⟩
  | .hbm, ⟨23, _⟩ => ⟨S_, .f32⟩
  | .hbm, ⟨24, _⟩ => ⟨S16x1024, .f32⟩
  | .hbm, ⟨25, _⟩ => ⟨S_, .f32⟩
  | .hbm, ⟨26, _⟩ => ⟨S16x1024, .f32⟩
  | .hbm, ⟨27, _⟩ => ⟨S16x1024, .f32⟩
  | .hbm, ⟨28, _⟩ => ⟨S16x1024x1, .f32⟩
  | .hbm, ⟨29, _⟩ => ⟨S16x1024x32, .f32⟩
  | .hbm, ⟨30, _⟩ => ⟨S16x1024x32, .f32⟩
  | .hbm, ⟨31, _⟩ => ⟨S16x1024x32, .f32⟩
  | .hbm, ⟨32, _⟩ => ⟨S_, .f32⟩
  | .hbm, ⟨33, _⟩ => ⟨S16x1024, .f32⟩
  | .hbm, ⟨34, _⟩ => ⟨S16x1024x1, .f32⟩
  | .hbm, ⟨35, _⟩ => ⟨S16x1024x32, .f32⟩
  | .hbm, ⟨36, _⟩ => ⟨S16x1024x32, .f32⟩
  | .hbm, ⟨37, _⟩ => ⟨S16x32x128, .f32⟩
  | .hbm, ⟨38, _⟩ => ⟨S_, .f32⟩
  | .hbm, ⟨39, _⟩ => ⟨S16x32, .f32⟩
  | .hbm, ⟨40, _⟩ => ⟨S16x32x1, .f32⟩
  | .hbm, ⟨41, _⟩ => ⟨S1x32x128, .f32⟩
  | .hbm, ⟨42, _⟩ => ⟨S16x32x128, .f32⟩
  | .hbm, ⟨43, _⟩ => ⟨S16x32x128, .f32⟩
  | .hbm, ⟨44, _⟩ => ⟨S16x32x128, .f32⟩
  | .hbm, ⟨45, _⟩ => ⟨S16x32x128, .f32⟩
  | _, _ => ⟨S16x32x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_5 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩

abbrev nD : Nat := 1
abbrev τ : Topo := Topo.v7x

variable {F : FTy → Type} [FloatOps F]

class Facts₀ : Prop where
  shapeCasts_S16x32x32x128_S16x1024x128 : S16x32x32x128.ShapeCasts S16x1024x128
  reducesTo_S16x1024x128_S16x1024_d2 : S16x1024x128.ReducesTo [2] S16x1024
  h_S_ : 0 < S_.numel
  bcast_S16x1024_S16x1024x1_0_1 : S16x1024.BroadcastsInDim S16x1024x1 (![0, 1] : Fin 2 → Fin S16x1024x1.rank)
  reducesTo_S32x128_S32_d1 : S32x128.ReducesTo [1] S32
  bcast_S32_S1x1x32_2 : S32.BroadcastsInDim S1x1x32 (![2] : Fin 1 → Fin S1x1x32.rank)
  bcast_S_S16x1024x32 : S_.BroadcastsInDim S16x1024x32 (![] : Fin 0 → Fin S16x1024x32.rank)
  bcast_S16x1024x1_S16x1024x32_0_1_2 : S16x1024x1.BroadcastsInDim S16x1024x32 (![0, 1, 2] : Fin 3 → Fin S16x1024x32.rank)
  bcast_S1x1x32_S16x1024x32_0_1_2 : S1x1x32.BroadcastsInDim S16x1024x32 (![0, 1, 2] : Fin 3 → Fin S16x1024x32.rank)
  reducesTo_S16x1024x32_S16x1024_d2 : S16x1024x32.ReducesTo [2] S16x1024
  bcast_S_S16x1024 : S_.BroadcastsInDim S16x1024 (![] : Fin 0 → Fin S16x1024.rank)
  reducesTo_S16x1024x32_S16x32_d1 : S16x1024x32.ReducesTo [1] S16x32
  bcast_S16x32_S16x32x1_0_1 : S16x32.BroadcastsInDim S16x32x1 (![0, 1] : Fin 2 → Fin S16x32x1.rank)
  bcast_S32x128_S1x32x128_1_2 : S32x128.BroadcastsInDim S1x32x128 (![1, 2] : Fin 2 → Fin S1x32x128.rank)
  bcast_S16x32x1_S16x32x128_0_1_2 : S16x32x1.BroadcastsInDim S16x32x128 (![0, 1, 2] : Fin 3 → Fin S16x32x128.rank)
  bcast_S1x32x128_S16x32x128_0_1_2 : S1x32x128.BroadcastsInDim S16x32x128 (![0, 1, 2] : Fin 3 → Fin S16x32x128.rank)
  dot_S16x1024x128_S32x128_S16x1024x32_2_1_01_0_n_n_wf : DotDims.WF S16x1024x128 S32x128 S16x1024x32 [2] [1] [0, 1] [0] [] []
  dot_S16x1024x32_S16x1024x128_S16x32x128_1_1_2_2_0_0_wf : DotDims.WF S16x1024x32 S16x1024x128 S16x32x128 [1] [1] [2] [2] [0] [0]

variable [Facts₀]

def dot_S16x1024x128_S32x128_S16x1024x32_2_1_01_0_n_n : DotDims S16x1024x128 S32x128 S16x1024x32 where
  lhsContracting := [2]
  rhsContracting := [1]
  lhsNonContracting := [0, 1]
  rhsNonContracting := [0]
  lhsBatch := []
  rhsBatch := []
  wf := dot_S16x1024x128_S32x128_S16x1024x32_2_1_01_0_n_n_wf
def dot_S16x1024x32_S16x1024x128_S16x32x128_1_1_2_2_0_0 : DotDims S16x1024x32 S16x1024x128 S16x32x128 where
  lhsContracting := [1]
  rhsContracting := [1]
  lhsNonContracting := [2]
  rhsNonContracting := [2]
  lhsBatch := [0]
  rhsBatch := [0]
  wf := dot_S16x1024x32_S16x1024x128_S16x32x128_1_1_2_2_0_0_wf

class Facts : Prop extends Facts₀ where

variable [Facts]
-- ==== Proof.KernelOps.lean ====
/-
  The kernel body's reductions and matrix products, read at an index on the extended reals.

  A sum over one axis of a rank-2 block is the finite sum over that axis's coordinates; the lane maximum is the fold of
  `max` from the starting value over the 32 lanes; and a matrix product into a zero accumulator is the sum, over the
  contracted coordinate, of the products of the operands' entries. Each is stated at explicit coordinates, so that the
  body's stages can be read one after the other without an order of summation or a tile shape left in them.
-/
import proofs.«135601_j88699664597510_1_alg».proof.Proof.Gen.KernelIdeal.Skeleton
import Idealize.ShloMosaic.Lib.ValueIdx
import Idealize.ShloMosaic.PureOps.Ideal.Laws

noncomputable section

namespace Cert.KernelIdeal.Enc

open Idealize.ShloMosaic Idealize.ShloMosaic.ValueIdx Cert.KernelIdeal Cert.KernelIdeal.Gen

/-! ## Sums over one axis -/

/-- The sum over the 128 features of row `n` of a `[1024, 128]` block. -/
theorem sum_features (src : FVec Ideal S1024x128 .f32) (h : S1024x128.Reduces [1] S1024) (hφ : FKind.Formats .f32)
    (hacc : (0x00000000#32 : BitVec FTy.f32.bits) = FKind.add.neutral .f32 hφ) (n : Fin 1024) :
    multiReduction .add [1] S1024 src 0x00000000#32 h hφ hacc (ix1 n) = ∑ d : Fin 128, src (ix2 n d) := by
  refine (Ideal.multiReduction_add_single src _ h hφ hacc (ix1 n)).trans ?_
  exact Finset.sum_congr rfl fun d _ => congrArg src (funext fun a => Fin.ext (by
    match a with | ⟨0, _⟩ => rfl | ⟨1, _⟩ => rfl))

/-- The sum over the 32 codewords of row `n` of a `[1024, 32]` block. -/
theorem sum_codes (src : FVec Ideal S1024x32 .f32) (h : S1024x32.Reduces [1] S1024) (hφ : FKind.Formats .f32)
    (hacc : (0x00000000#32 : BitVec FTy.f32.bits) = FKind.add.neutral .f32 hφ) (n : Fin 1024) :
    multiReduction .add [1] S1024 src 0x00000000#32 h hφ hacc (ix1 n) = ∑ k : Fin 32, src (ix2 n k) := by
  refine (Ideal.multiReduction_add_single src _ h hφ hacc (ix1 n)).trans ?_
  exact Finset.sum_congr rfl fun k _ => congrArg src (funext fun a => Fin.ext (by
    match a with | ⟨0, _⟩ => rfl | ⟨1, _⟩ => rfl))

/-- The sum over the 1024 rows of column `k` of a `[1024, 32]` block. -/
theorem sum_rows (src : FVec Ideal S1024x32 .f32) (h : S1024x32.Reduces [0] S32) (hφ : FKind.Formats .f32)
    (hacc : (0x00000000#32 : BitVec FTy.f32.bits) = FKind.add.neutral .f32 hφ) (k : Fin 32) :
    multiReduction .add [0] S32 src 0x00000000#32 h hφ hacc (ix1 k) = ∑ n : Fin 1024, src (ix2 n k) := by
  refine (Ideal.multiReduction_add_single src _ h hφ hacc (ix1 k)).trans ?_
  exact Finset.sum_congr rfl fun n _ => congrArg src (funext fun a => Fin.ext (by
    match a with | ⟨0, _⟩ => rfl | ⟨1, _⟩ => rfl))

/-! ## The lane maximum -/

/-- The maximum over the 32 codewords of row `n`: the fold of `max` from the starting value. -/
theorem max_codes (src : FVec Ideal S1024x32 .f32) (h : S1024x32.Reduces [1] S1024) (hφ : FKind.Formats .f32)
    (hacc : (0xFF800000#32 : BitVec FTy.f32.bits) = FKind.maximumf.neutral .f32 hφ) (n : Fin 1024) :
    multiReduction .maximumf [1] S1024 src 0xFF800000#32 h hφ hacc (ix1 n)
      = (Finset.univ : Finset (Fin 32)).fold max (Ideal.ofBits .f32 0xFF800000#32) (fun k => src (ix2 n k)) := by
  refine (Ideal.multiReduction_maximumf_single src _ h hφ hacc (ix1 n)).trans ?_
  exact congrArg ((Finset.univ : Finset (Fin 32)).fold max (Ideal.ofBits .f32 0xFF800000#32))
    (funext fun k => congrArg src (funext fun a => Fin.ext (by
      match a with | ⟨0, _⟩ => rfl | ⟨1, _⟩ => rfl)))

/-! ## The cross term's matrix product: rows times transposed codewords -/

theorem lhs_cross_0 (i : S1024x32.Idx) (q : dot_S1024x128_S128x32_S1024x32_1_0_0_1_n_n.contr.Idx) :
    (dot_S1024x128_S128x32_S1024x32_1_0_0_1_n_n.lhsIdx i q 0).val = (i 0).val := by
  unfold DotDims.lhsIdx
  rw [dif_neg (show ¬(0 : Fin S1024x128.rank) ∈ dot_S1024x128_S128x32_S1024x32_1_0_0_1_n_n.lhsBatch by decide), dif_pos (show (0 : Fin S1024x128.rank) ∈ dot_S1024x128_S128x32_S1024x32_1_0_0_1_n_n.lhsNonContracting by decide)]
  rfl
theorem lhs_cross_1 (i : S1024x32.Idx) (q : dot_S1024x128_S128x32_S1024x32_1_0_0_1_n_n.contr.Idx) :
    (dot_S1024x128_S128x32_S1024x32_1_0_0_1_n_n.lhsIdx i q 1).val = (q ⟨0, by decide⟩).val :=
  dot_S1024x128_S128x32_S1024x32_1_0_0_1_n_n.lhsIdx_val_of_single rfl i q
theorem rhs_cross_0 (i : S1024x32.Idx) (q : dot_S1024x128_S128x32_S1024x32_1_0_0_1_n_n.contr.Idx) :
    (dot_S1024x128_S128x32_S1024x32_1_0_0_1_n_n.rhsIdx i q 0).val = (q ⟨0, by decide⟩).val :=
  dot_S1024x128_S128x32_S1024x32_1_0_0_1_n_n.rhsIdx_val_of_single rfl i q
theorem rhs_cross_1 (i : S1024x32.Idx) (q : dot_S1024x128_S128x32_S1024x32_1_0_0_1_n_n.contr.Idx) :
    (dot_S1024x128_S128x32_S1024x32_1_0_0_1_n_n.rhsIdx i q 1).val = (i 1).val := by
  unfold DotDims.rhsIdx
  rw [dif_neg (show ¬(1 : Fin S128x32.rank) ∈ dot_S1024x128_S128x32_S1024x32_1_0_0_1_n_n.rhsBatch by decide), dif_pos (show (1 : Fin S128x32.rank) ∈ dot_S1024x128_S128x32_S1024x32_1_0_0_1_n_n.rhsNonContracting by decide)]
  rfl

/-- Entry `(n, k)` of a `[1024, 128]` by `[128, 32]` product into zero: the sum over the 128 features. -/
theorem matmul_cross (l : FVec Ideal S1024x128 .bf16) (r : FVec Ideal S128x32 .bf16) (n : Fin 1024) (k : Fin 32) :
    matmul dot_S1024x128_S128x32_S1024x32_1_0_0_1_n_n none l r (constant (F := Ideal) S1024x32 .f32 0x00000000#32) (ix2 n k)
      = ∑ d : Fin 128, l (ix2 n d) * r (ix2 d k) := by
  simp only [matmul]
  rw [Ideal.matmul_constant_zero_apply, ← Equiv.sum_comp (contrEquiv1 dot_S1024x128_S128x32_S1024x32_1_0_0_1_n_n 128 rfl rfl).symm]
  refine Finset.sum_congr rfl fun d _ => ?_
  have hd := contrEquiv1_symm_val dot_S1024x128_S128x32_S1024x32_1_0_0_1_n_n 128 rfl rfl d
  have el : dot_S1024x128_S128x32_S1024x32_1_0_0_1_n_n.lhsIdx (ix2 n k) ((contrEquiv1 dot_S1024x128_S128x32_S1024x32_1_0_0_1_n_n 128 rfl rfl).symm d) = ix2 n d := funext fun a => Fin.ext (by
    match a with
    | ⟨0, _⟩ => exact lhs_cross_0 _ _
    | ⟨1, _⟩ => exact (lhs_cross_1 _ _).trans hd)
  have er : dot_S1024x128_S128x32_S1024x32_1_0_0_1_n_n.rhsIdx (ix2 n k) ((contrEquiv1 dot_S1024x128_S128x32_S1024x32_1_0_0_1_n_n 128 rfl rfl).symm d) = ix2 d k := funext fun a => Fin.ext (by
    match a with
    | ⟨0, _⟩ => exact (rhs_cross_0 _ _).trans hd
    | ⟨1, _⟩ => exact rhs_cross_1 _ _)
  rw [el, er]

/-! ## The aggregation's matrix product: transposed weights times rows -/

theorem lhs_agg_0 (i : S32x128.Idx) (q : dot_S32x1024_S1024x128_S32x128_1_0_0_1_n_n.contr.Idx) :
    (dot_S32x1024_S1024x128_S32x128_1_0_0_1_n_n.lhsIdx i q 0).val = (i 0).val := by
  unfold DotDims.lhsIdx
  rw [dif_neg (show ¬(0 : Fin S32x1024.rank) ∈ dot_S32x1024_S1024x128_S32x128_1_0_0_1_n_n.lhsBatch by decide), dif_pos (show (0 : Fin S32x1024.rank) ∈ dot_S32x1024_S1024x128_S32x128_1_0_0_1_n_n.lhsNonContracting by decide)]
  rfl
theorem lhs_agg_1 (i : S32x128.Idx) (q : dot_S32x1024_S1024x128_S32x128_1_0_0_1_n_n.contr.Idx) :
    (dot_S32x1024_S1024x128_S32x128_1_0_0_1_n_n.lhsIdx i q 1).val = (q ⟨0, by decide⟩).val :=
  dot_S32x1024_S1024x128_S32x128_1_0_0_1_n_n.lhsIdx_val_of_single rfl i q
theorem rhs_agg_0 (i : S32x128.Idx) (q : dot_S32x1024_S1024x128_S32x128_1_0_0_1_n_n.contr.Idx) :
    (dot_S32x1024_S1024x128_S32x128_1_0_0_1_n_n.rhsIdx i q 0).val = (q ⟨0, by decide⟩).val :=
  dot_S32x1024_S1024x128_S32x128_1_0_0_1_n_n.rhsIdx_val_of_single rfl i q
theorem rhs_agg_1 (i : S32x128.Idx) (q : dot_S32x1024_S1024x128_S32x128_1_0_0_1_n_n.contr.Idx) :
    (dot_S32x1024_S1024x128_S32x128_1_0_0_1_n_n.rhsIdx i q 1).val = (i 1).val := by
  unfold DotDims.rhsIdx
  rw [dif_neg (show ¬(1 : Fin S1024x128.rank) ∈ dot_S32x1024_S1024x128_S32x128_1_0_0_1_n_n.rhsBatch by decide), dif_pos (show (1 : Fin S1024x128.rank) ∈ dot_S32x1024_S1024x128_S32x128_1_0_0_1_n_n.rhsNonContracting by decide)]
  rfl

/-- Entry `(k, d)` of a `[32, 1024]` by `[1024, 128]` product into zero: the sum over the 1024 rows. -/
theorem matmul_agg (l : FVec Ideal S32x1024 .bf16) (r : FVec Ideal S1024x128 .bf16) (k : Fin 32) (d : Fin 128) :
    matmul dot_S32x1024_S1024x128_S32x128_1_0_0_1_n_n none l r (constant (F := Ideal) S32x128 .f32 0x00000000#32) (ix2 k d)
      = ∑ n : Fin 1024, l (ix2 k n) * r (ix2 n d) := by
  simp only [matmul]
  rw [Ideal.matmul_constant_zero_apply, ← Equiv.sum_comp (contrEquiv1 dot_S32x1024_S1024x128_S32x128_1_0_0_1_n_n 1024 rfl rfl).symm]
  refine Finset.sum_congr rfl fun n _ => ?_
  have hn := contrEquiv1_symm_val dot_S32x1024_S1024x128_S32x128_1_0_0_1_n_n 1024 rfl rfl n
  have el : dot_S32x1024_S1024x128_S32x128_1_0_0_1_n_n.lhsIdx (ix2 k d) ((contrEquiv1 dot_S32x1024_S1024x128_S32x128_1_0_0_1_n_n 1024 rfl rfl).symm n) = ix2 k n := funext fun a => Fin.ext (by
    match a with
    | ⟨0, _⟩ => exact lhs_agg_0 _ _
    | ⟨1, _⟩ => exact (lhs_agg_1 _ _).trans hn)
  have er : dot_S32x1024_S1024x128_S32x128_1_0_0_1_n_n.rhsIdx (ix2 k d) ((contrEquiv1 dot_S32x1024_S1024x128_S32x128_1_0_0_1_n_n 1024 rfl rfl).symm n) = ix2 n d := funext fun a => Fin.ext (by
    match a with
    | ⟨0, _⟩ => exact (rhs_agg_0 _ _).trans hn
    | ⟨1, _⟩ => exact rhs_agg_1 _ _)
  rw [el, er]

end Cert.KernelIdeal.Enc

end
-- ==== Proof.Spec.lean ====
/-
  The encoding layer for one batch, as arithmetic on the extended reals over coordinates.

  A batch holds 1024 rows `X n` of 128 features, and there are 32 codewords `C k` with one smoothing factor
  `s k` each. Row `n` is assigned to codeword `k` with the weight

      A n k = exp (L n k - M n) / Σ_k' exp (L n k' - M n),      L n k = s k · (|X n|² - 2 · ⟨X n, C k⟩ + |C k|²),

  where `M n` is the largest of row `n`'s logits `L n k` (taken from `-∞`, and once more against `-∞`, as both
  programs spell it), and the layer's output aggregates the residuals,

      E k d = Σ_n A n k · X n d - (Σ_n A n k) · C k d.

  Every sum is a finite sum over one axis's coordinates and the row maximum a fold of `max` over them, so nothing here
  depends on an order of summation or on a tiling. The literal `2.0` and the `-∞` both programs write are kept as the
  words they print: the same word stands on both sides, and its value is never needed.
-/
import Idealize.ShloMosaic.PureOps.Ideal
import Idealize.ShloMosaic.Lib.ValueIdx

noncomputable section

namespace Cert.Encoding

open Idealize.ShloMosaic Idealize.ShloMosaic.ValueIdx

/-- The factor `2.0` of the cross term, as the f32 word both programs print. -/
abbrev two : EReal := Ideal.ofBits .f32 0x40000000#32

/-- The value both row maxima start from: the f32 word of `-∞`. -/
abbrev negInf : EReal := Ideal.ofBits .f32 0xFF800000#32

variable (X : Fin 1024 → Fin 128 → EReal) (C : Fin 32 → Fin 128 → EReal) (s : Fin 32 → EReal)

/-- `|X n|²`: the sum of the squares of row `n`'s features. -/
def rowSq (n : Fin 1024) : EReal := ∑ d : Fin 128, X n d * X n d

/-- `|C k|²`: the sum of the squares of codeword `k`'s features. -/
def codeSq (k : Fin 32) : EReal := ∑ d : Fin 128, C k d * C k d

/-- `⟨X n, C k⟩`: the inner product of row `n` and codeword `k`. -/
def cross (n : Fin 1024) (k : Fin 32) : EReal := ∑ d : Fin 128, X n d * C k d

/-- The logit of row `n` for codeword `k`: the smoothing factor times the squared distance, expanded, with the
    codewords' squared norms `c2` supplied (the kernel receives them as an operand). -/
def logit (c2 : Fin 32 → EReal) (n : Fin 1024) (k : Fin 32) : EReal :=
  s k * (rowSq X n - two * cross X C n k + c2 k)

variable (L : Fin 1024 → Fin 32 → EReal)

/-- The largest logit of row `n`: the fold of `max` from `-∞` over the 32 codewords, then `max` with `-∞` once more. -/
def rowMax (n : Fin 1024) : EReal := max negInf ((Finset.univ : Finset (Fin 32)).fold max negInf (L n))

/-- The shifted exponential `exp (L n k - M n)`. -/
def expo (n : Fin 1024) (k : Fin 32) : EReal := Ideal.exp (L n k - rowMax L n)

/-- The assignment weight of row `n` to codeword `k`: its shifted exponential over the row's sum of them. -/
def assign (n : Fin 1024) (k : Fin 32) : EReal := Ideal.div (expo L n k) (∑ k' : Fin 32, expo L n k')

variable (A : Fin 1024 → Fin 32 → EReal)

/-- The aggregated residual: `Σ_n A n k · X n d - (Σ_n A n k) · C k d`. -/
def aggregate (k : Fin 32) (d : Fin 128) : EReal := (∑ n : Fin 1024, A n k * X n d) - (∑ n : Fin 1024, A n k) * C k d

/-- The layer on one batch, given the codewords' squared norms. -/
def encodeWith (c2 : Fin 32 → EReal) (k : Fin 32) (d : Fin 128) : EReal :=
  aggregate X C (assign (logit X C s c2)) k d

/-- The layer on one batch. -/
def encode (k : Fin 32) (d : Fin 128) : EReal := encodeWith X C s (codeSq C) k d

/-- The whole result: entry `(b, k, d)` is the layer on batch `b` of the rows `Xs` (already laid out as
    `[16, 1024, 128]`), the codewords `cw` and the factors `sc`. -/
def result (Xs : (⟨3, ![16, 1024, 128]⟩ : Shape).Idx → EReal) (cw : (⟨2, ![32, 128]⟩ : Shape).Idx → EReal)
    (sc : (⟨1, ![32]⟩ : Shape).Idx → EReal) : (⟨3, ![16, 32, 128]⟩ : Shape).Idx → EReal :=
  fun i => encode (fun n d => Xs (ix3 (i 0) n d)) (fun k d => cw (ix2 k d)) (fun k => sc (ix1 k)) (i 1) (i 2)

theorem result_apply (Xs : (⟨3, ![16, 1024, 128]⟩ : Shape).Idx → EReal) (cw : (⟨2, ![32, 128]⟩ : Shape).Idx → EReal)
    (sc : (⟨1, ![32]⟩ : Shape).Idx → EReal) (b : Fin 16) (k : Fin 32) (d : Fin 128) :
    result Xs cw sc (ix3 b k d)
      = encode (fun n d => Xs (ix3 b n d)) (fun k d => cw (ix2 k d)) (fun k => sc (ix1 k)) k d := rfl

end Cert.Encoding

end
-- ==== Proof.LibKeepdims.lean ====
/-
  A column of per-row values kept as a rank-2 array with a trailing unit axis, read at an index: what a row reduction
  with the reduced axis kept (a sum over the last axis that stays rank 2) needs on the way back to full width.

    [a] cast to [a, 1]          reads, at (i, u), the operand at i, whatever the unit coordinate u;
    [a, 1] broadcast to [a, b]  reads, at (p, c), the operand's row p at its one column.

  Both are the row-major position argument of the leading-unit-axis forms with the axes exchanged.
-/
import Idealize.ShloMosaic.Lib.ValueIdx
import Idealize.ShloMosaic.Lib.Pipeline.Value

namespace Idealize.ShloMosaic.Keepdims

open Idealize.ShloMosaic Idealize.ShloMosaic.ValueIdx

variable {α : Type}

/-- An `[a]` array cast to `[a, 1]` reads, at `(i, u)`, the operand at `i`: position `i · 1 + u` with `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` array broadcast to `[a, b]` reads, at `(p, c)`, the operand's row `p` at its one column. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Idealize.ShloMosaic.Keepdims
-- ==== Proof.KernelValue.lean ====
/-
  What the kernel body computes for one batch, entry by entry.

  The body's arithmetic is cut into its three stages — the logits `L`, the assignment weights `A = softmax L`, and the
  aggregated residuals `E` — each a term over whole blocks, and each is read at explicit coordinates:

    * the logits: the factor row broadcast over the rows, the rows' squared norms broadcast over the columns, the cross
      term as a matrix product with the transposed codewords, the codewords' squared norms broadcast over the rows;
    * the weights: the lane maximum (from `-∞`, then `max` with `-∞`), the shifted exponentials, their lane sum, the
      quotient;
    * the residuals: the matrix product of the transposed weights with the rows, minus the column sums of the weights
      times the codewords.

  Narrowing to bf16 in front of the matrix products is the identity on the extended reals. Composed, the body's result at
  `(k, d)` is the layer of the specification on this block's rows.
-/
import proofs.«135601_j88699664597510_1_alg».proof.Proof.KernelOps
import proofs.«135601_j88699664597510_1_alg».proof.Proof.Spec
import proofs.«135601_j88699664597510_1_alg».proof.Proof.LibKeepdims
import Idealize.ShloMosaic.Lib.ValueLayout
import Idealize.ShloMosaic.Lib.Pipeline.Value

noncomputable section

namespace Cert.KernelIdeal.Enc

open Idealize.ShloMosaic Idealize.ShloMosaic.ValueIdx Idealize.ShloMosaic.Keepdims Cert.KernelIdeal Cert.KernelIdeal.Gen

variable {F : FTy → Type} [FloatOps F]

/-! ## The three stages, as terms over whole blocks -/

/-- The logits of every row for every codeword, from the rows `x`, the codewords `cw`, the factors `sc` and the
    codewords' squared norms `c2`. -/
def logits (x : FVec F S1024x128 .f32) (cw : FVec F S32x128 .f32) (sc c2 : FVec F S32 .f32) : FVec F S1024x32 .f32 :=
  mulf (broadcastTo S1024x32 (shapeCast S1x32 sc shapeCasts_S32_S1x32) broadcasts_S1x32_S1024x32)
    (addf
      (subf
        (broadcastTo S1024x32 (shapeCast S1024x1 (multiReduction .add [1] S1024 (mulf x x) 0x00000000#32 reduces_S1024x128_S1024 (.inl rfl) rfl) shapeCasts_S1024_S1024x1) broadcasts_S1024x1_S1024x32)
        (mulf (broadcast S1024x32 (Scalar.ofBits .f32 0x40000000#32))
          (matmul dot_S1024x128_S128x32_S1024x32_1_0_0_1_n_n none (truncf .bf16 x bitsLt_bf16_f32)
            (transpose S128x32 [1, 0] (truncf .bf16 cw bitsLt_bf16_f32) transposes_S32x128_p1_0_S128x32) (constant S1024x32 .f32 0x00000000#32))))
      (broadcastTo S1024x32 (shapeCast S1x32 (shapeCast S32 c2 shapeCasts_S32_S32) shapeCasts_S32_S1x32) broadcasts_S1x32_S1024x32))

/-- The exponentials of the logits shifted by their row's maximum. -/
def shifted (l : FVec F S1024x32 .f32) : FVec F S1024x32 .f32 :=
  exp (subf l (broadcastTo S1024x32 (shapeCast S1024x1
    (maximumf (broadcast S1024 (Scalar.ofBits .f32 0xFF800000#32)) (multiReduction .maximumf [1] S1024 l 0xFF800000#32 reduces_S1024x32_S1024 (.inl rfl) rfl))
    shapeCasts_S1024_S1024x1) broadcasts_S1024x1_S1024x32))

/-- The assignment weights: each shifted exponential over its row's sum of them. -/
def weights (l : FVec F S1024x32 .f32) : FVec F S1024x32 .f32 :=
  divf (shifted l) (broadcastTo S1024x32 (shapeCast S1024x1
    (multiReduction .add [1] S1024 (shifted l) 0x00000000#32 reduces_S1024x32_S1024 (.inl rfl) rfl) shapeCasts_S1024_S1024x1) broadcasts_S1024x1_S1024x32)

/-- The aggregated residuals, from the weights `a`, the rows `x` and the codewords `cw`. -/
def residual (a : FVec F S1024x32 .f32) (x : FVec F S1024x128 .f32) (cw : FVec F S32x128 .f32) : FVec F S32x128 .f32 :=
  subf
    (matmul dot_S32x1024_S1024x128_S32x128_1_0_0_1_n_n none
      (transpose S32x1024 [1, 0] (truncf .bf16 a bitsLt_bf16_f32) transposes_S1024x32_p1_0_S32x1024) (truncf .bf16 x bitsLt_bf16_f32) (constant S32x128 .f32 0x00000000#32))
    (mulf (broadcastTo S32x128 (shapeCast S32x1 (multiReduction .add [0] S32 a 0x00000000#32 reduces_S1024x32_S32 (.inl rfl) rfl) shapeCasts_S32_S32x1) broadcasts_S32x1_S32x128) cw)

/-- The body's arithmetic is the three stages composed, on the block with its leading unit axis dropped. -/
theorem pay_eq (P0 : Vec F S1x1024x128 .f32) (P1 : Vec F S32x128 .f32) (P2 P3 : Vec F S32 .f32) :
    k0_pay2 P0 P1 P2 P3
      = residual (weights (logits (shapeCast S1024x128 P0 shapeCasts_S1x1024x128_S1024x128) P1 P2 P3))
          (shapeCast S1024x128 P0 shapeCasts_S1x1024x128_S1024x128) P1 := rfl

/-! ## Each stage at coordinates -/

theorem logits_apply (x : FVec Ideal S1024x128 .f32) (cw : FVec Ideal S32x128 .f32) (sc c2 : FVec Ideal S32 .f32)
    (n : Fin 1024) (k : Fin 32) :
    logits (F := Ideal) x cw sc c2 (ix2 n k)
      = Cert.Encoding.logit (fun n d => x (ix2 n d)) (fun k d => cw (ix2 k d)) (fun k => sc (ix1 k)) (fun k => c2 (ix1 k)) n k := by
  have e1 : broadcastTo S1024x32 (shapeCast S1x32 sc shapeCasts_S32_S1x32) broadcasts_S1x32_S1024x32 (ix2 n k) = sc (ix1 k) :=
    (broadcastTo_1b_ab_apply _ _ n k).trans (shapeCast_a_1a_apply sc _ 0 k)
  have e2 : broadcastTo S1024x32 (shapeCast S1024x1 (multiReduction .add [1] S1024 (mulf x x) 0x00000000#32 reduces_S1024x128_S1024 (.inl rfl) rfl) shapeCasts_S1024_S1024x1) broadcasts_S1024x1_S1024x32 (ix2 n k)
      = ∑ d : Fin 128, x (ix2 n d) * x (ix2 n d) :=
    ((broadcastTo_a1_ab_apply _ _ n k).trans (shapeCast_a_a1_apply _ _ n 0)).trans (sum_features _ _ _ _ n)
  have e3 : matmul dot_S1024x128_S128x32_S1024x32_1_0_0_1_n_n none (truncf .bf16 x bitsLt_bf16_f32)
      (transpose S128x32 [1, 0] (truncf .bf16 cw bitsLt_bf16_f32) transposes_S32x128_p1_0_S128x32) (constant (F := Ideal) S1024x32 .f32 0x00000000#32) (ix2 n k)
      = ∑ d : Fin 128, x (ix2 n d) * cw (ix2 k d) :=
    (matmul_cross _ _ n k).trans (Finset.sum_congr rfl fun d _ => congrArg (x (ix2 n d) * ·) (transpose_ix2_apply _ _ d k))
  have e4 : broadcastTo S1024x32 (shapeCast S1x32 (shapeCast S32 c2 shapeCasts_S32_S32) shapeCasts_S32_S1x32) broadcasts_S1x32_S1024x32 (ix2 n k) = c2 (ix1 k) :=
    ((broadcastTo_1b_ab_apply _ _ n k).trans (shapeCast_a_1a_apply _ _ 0 k)).trans (congrFun (shapeCast_self c2 _) _)
  unfold logits Cert.Encoding.logit Cert.Encoding.rowSq Cert.Encoding.cross
  simp only [mulf_apply, addf_apply, subf_apply, broadcast_apply]
  rw [e1, e2, e3, e4]
  rfl

theorem shifted_apply (l : FVec Ideal S1024x32 .f32) (n : Fin 1024) (k : Fin 32) :
    shifted (F := Ideal) l (ix2 n k) = Cert.Encoding.expo (fun n k => l (ix2 n k)) n k := by
  have e : broadcastTo S1024x32 (shapeCast S1024x1
      (maximumf (broadcast S1024 (Scalar.ofBits (F := Ideal) .f32 0xFF800000#32)) (multiReduction .maximumf [1] S1024 l 0xFF800000#32 reduces_S1024x32_S1024 (.inl rfl) rfl))
      shapeCasts_S1024_S1024x1) broadcasts_S1024x1_S1024x32 (ix2 n k)
      = Cert.Encoding.rowMax (fun n k => l (ix2 n k)) n :=
    ((broadcastTo_a1_ab_apply _ _ n k).trans (shapeCast_a_a1_apply _ _ n 0)).trans
      (congrArg (max (Ideal.ofBits .f32 0xFF800000#32)) (max_codes l _ _ _ n))
  unfold shifted Cert.Encoding.expo
  show Ideal.exp (l (ix2 n k) - _) = _
  rw [e]

theorem weights_apply (l : FVec Ideal S1024x32 .f32) (n : Fin 1024) (k : Fin 32) :
    weights (F := Ideal) l (ix2 n k) = Cert.Encoding.assign (fun n k => l (ix2 n k)) n k := by
  have e : broadcastTo S1024x32 (shapeCast S1024x1
      (multiReduction .add [1] S1024 (shifted (F := Ideal) l) 0x00000000#32 reduces_S1024x32_S1024 (.inl rfl) rfl) shapeCasts_S1024_S1024x1) broadcasts_S1024x1_S1024x32 (ix2 n k)
      = ∑ k' : Fin 32, Cert.Encoding.expo (fun n k => l (ix2 n k)) n k' :=
    (((broadcastTo_a1_ab_apply _ _ n k).trans (shapeCast_a_a1_apply _ _ n 0)).trans (sum_codes _ _ _ _ n)).trans
      (Finset.sum_congr rfl fun k' _ => shifted_apply l n k')
  unfold weights Cert.Encoding.assign
  rw [divf_apply, e, shifted_apply]

theorem residual_apply (a : FVec Ideal S1024x32 .f32) (x : FVec Ideal S1024x128 .f32) (cw : FVec Ideal S32x128 .f32)
    (k : Fin 32) (d : Fin 128) :
    residual (F := Ideal) a x cw (ix2 k d)
      = Cert.Encoding.aggregate (fun n d => x (ix2 n d)) (fun k d => cw (ix2 k d)) (fun n k => a (ix2 n k)) k d := by
  have e1 : matmul dot_S32x1024_S1024x128_S32x128_1_0_0_1_n_n none
      (transpose S32x1024 [1, 0] (truncf .bf16 a bitsLt_bf16_f32) transposes_S1024x32_p1_0_S32x1024) (truncf .bf16 x bitsLt_bf16_f32)
      (constant (F := Ideal) S32x128 .f32 0x00000000#32) (ix2 k d)
      = ∑ n : Fin 1024, a (ix2 n k) * x (ix2 n d) :=
    (matmul_agg _ _ k d).trans (Finset.sum_congr rfl fun n _ => congrArg (· * x (ix2 n d)) (transpose_ix2_apply _ _ k n))
  have e2 : broadcastTo S32x128 (shapeCast S32x1 (multiReduction .add [0] S32 a 0x00000000#32 reduces_S1024x32_S32 (.inl rfl) rfl) shapeCasts_S32_S32x1) broadcasts_S32x1_S32x128 (ix2 k d)
      = ∑ n : Fin 1024, a (ix2 n k) :=
    ((broadcastTo_a1_ab_apply _ _ k d).trans (shapeCast_a_a1_apply _ _ k 0)).trans (sum_rows _ _ _ _ k)
  unfold residual Cert.Encoding.aggregate
  simp only [subf_apply, mulf_apply]
  rw [e1, e2]

/-! ## The body's result at coordinates -/

/-- The body's result at `(k, d)`, from the block of rows `P0`, the codewords `P1`, the factors `P2` and the codewords'
    squared norms `P3`: the layer of the specification on those, with the squared norms supplied. -/
theorem pay_apply (P0 : FVec Ideal S1x1024x128 .f32) (P1 : FVec Ideal S32x128 .f32) (P2 P3 : FVec Ideal S32 .f32)
    (k : Fin 32) (d : Fin 128) :
    k0_pay2 (F := Ideal) P0 P1 P2 P3 (ix2 k d)
      = Cert.Encoding.encodeWith (fun n d => P0 (ix3 (0 : Fin 1) n d)) (fun k d => P1 (ix2 k d)) (fun k => P2 (ix1 k))
          (fun k => P3 (ix1 k)) k d := by
  have hX : (fun (n : Fin 1024) (d : Fin 128) => shapeCast S1024x128 P0 shapeCasts_S1x1024x128_S1024x128 (ix2 n d))
      = fun n d => P0 (ix3 (0 : Fin 1) n d) :=
    funext fun n => funext fun d => shapeCast_1ab_ab_apply P0 _ n d
  have hL : (fun (n : Fin 1024) (k : Fin 32) => logits (F := Ideal) (shapeCast S1024x128 P0 shapeCasts_S1x1024x128_S1024x128) P1 P2 P3 (ix2 n k))
      = Cert.Encoding.logit (fun n d => P0 (ix3 (0 : Fin 1) n d)) (fun k d => P1 (ix2 k d)) (fun k => P2 (ix1 k)) (fun k => P3 (ix1 k)) :=
    funext fun n => funext fun k => (logits_apply _ P1 P2 P3 n k).trans (by rw [hX])
  have hA : (fun (n : Fin 1024) (k : Fin 32) => weights (F := Ideal) (logits (shapeCast S1024x128 P0 shapeCasts_S1x1024x128_S1024x128) P1 P2 P3) (ix2 n k))
      = Cert.Encoding.assign (Cert.Encoding.logit (fun n d => P0 (ix3 (0 : Fin 1) n d)) (fun k d => P1 (ix2 k d)) (fun k => P2 (ix1 k)) (fun k => P3 (ix1 k))) :=
    funext fun n => funext fun k => (weights_apply _ n k).trans (by rw [hL])
  rw [pay_eq]
  refine (residual_apply _ _ P1 k d).trans ?_
  rw [hA, hX]
  rfl

end Cert.KernelIdeal.Enc

end
-- ==== Proof.Blocks.lean ====
/-
  From what each grid point writes back to the whole result array.

  The grid has one point per batch. At point `t` the body sees batch `t`'s rows (block `t` of the input laid out as
  `[16, 1024, 128]`), and the codewords, the smoothing factors and the codewords' squared norms whole; what it leaves in the
  output's buffer is the layer on those (the kernel's value at coordinates), and the pipeline writes it back as block `t` of
  the `[16, 32, 128]` result. The codewords' squared norms reach the kernel as an operand the host computed: a sum of
  squares from the zero word, which is the specification's. The sixteen blocks tile the result, so the array ends holding
  the specification's result everywhere.
-/
import proofs.«135601_j88699664597510_1_alg».proof.Proof.Gen.KernelIdeal.Value
import proofs.«135601_j88699664597510_1_alg».proof.Proof.KernelValue
import Idealize.ShloMosaic.Lib.StableHlo.Run

noncomputable section

namespace Cert.KernelIdeal.Enc

open Idealize.ShloMosaic Idealize.ShloMosaic.TcCoe Idealize.ShloMosaic.ValueIdx Idealize.SL.Sem
open Cert.KernelIdeal Cert.KernelIdeal.Gen Cert.Encoding
open Idealize.ShloMosaic.Pipeline (Dat)

variable (m : (ℓ : Loc nD τ sig) → Buf (Elt Ideal) ℓ) (ρ : Dev nD → PrngReg)

/-! ## The arrays the region finds, and the blocks a point sees, at their literal types -/

abbrev rowsArr (c : Dev nD) : Vec Ideal S16x1024x128 .f32 := V m c main_v0
abbrev codesArr (c : Dev nD) : Vec Ideal S32x128 .f32 := V m c main_arg1
abbrev factorsArr (c : Dev nD) : Vec Ideal S32 .f32 := V m c main_arg2
abbrev normsArr (c : Dev nD) : Vec Ideal S32 .f32 := V m c main_v2

abbrev rowsBlk (c : Dev nD) (t : Fin cfg0.N) : Vec Ideal S1x1024x128 .f32 := iblk m c 0 t
abbrev codesBlk (c : Dev nD) (t : Fin cfg0.N) : Vec Ideal S32x128 .f32 := iblk m c 1 t
abbrev factorsBlk (c : Dev nD) (t : Fin cfg0.N) : Vec Ideal S32 .f32 := iblk m c 2 t
abbrev normsBlk (c : Dev nD) (t : Fin cfg0.N) : Vec Ideal S32 .f32 := iblk m c 3 t

/-- The result the array is shown to hold: the specification's, of the arrays as the region finds them. -/
abbrev target (c : Dev nD) : Vec Ideal S16x32x128 .f32 := result (rowsArr m c) (codesArr m c) (factorsArr m c)

/-! ## What the host computed before the region -/

/-- The rows the region reads are the input re-laid as `[16, 1024, 128]`. -/
theorem rowsArr_eq (c : Dev nD) :
    rowsArr m c = shapeCast S16x1024x128 (m ((c : Thread nD τ).loc main_arg0)) shapeCasts_S16x32x32x128_S16x1024x128 := by
  show V m c main_v0 = _
  dsimp only [V, hostOps0]; after_results; rfl

/-- The squared norms the region reads are the host's sum of the codewords' squares from the zero word. -/
theorem normsArr_eq (c : Dev nD) :
    normsArr m c = Host.reduceAdd (F := Ideal) (mulf (m ((c : Thread nD τ).loc main_arg1)) (m ((c : Thread nD τ).loc main_arg1)))
      (constant (F := Ideal) S_ .f32 0x00000000#32) reducesTo_S32x128_S32_d1 h_S_ := by
  show V m c main_v2 = _
  dsimp only [V, hostOps0]; after_results

theorem codesArr_eq (c : Dev nD) : codesArr m c = m ((c : Thread nD τ).loc main_arg1) := V_main_arg1 m c
theorem factorsArr_eq (c : Dev nD) : factorsArr m c = m ((c : Thread nD τ).loc main_arg2) := V_main_arg2 m c

/-- So they are the specification's squared norms of the codewords. -/
theorem normsArr_apply (c : Dev nD) (k : Fin 32) :
    normsArr m c (ix1 k) = codeSq (fun k d => codesArr m c (ix2 k d)) k := by
  rw [normsArr_eq, codesArr_eq]
  generalize m ((c : Thread nD τ).loc main_arg1) = y
  simp only [Host.reduceAdd, Ideal.hostReduceAdd_def]
  rw [Ideal.hostReduceAdd_single reducesTo_S32x128_S32_d1 (by decide)]
  show Ideal.ofBits .f32 0x00000000#32 + _ = _
  rw [Ideal.ofBits_zero_f32, zero_add]
  unfold codeSq
  refine Finset.sum_congr rfl fun d _ => ?_
  have e : (by decide : S32x128.Reduces [1] S32).lift (ix1 k) d = ix2 k d :=
    funext fun a => Fin.ext (by match a with | ⟨0, _⟩ => rfl | ⟨1, _⟩ => rfl)
  rw [e]
  rfl

/-! ## The printed index maps, over the sixteen points -/

/-- Point `t` reads block `t` of the rows and writes block `t` of the result; the other operands are read whole. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 1) = 0 ∧ win0_3.index t (0 : Fin 1) = 0
    ∧ win0_4.index t (0 : Fin 3) = t.val ∧ win0_4.index t (1 : Fin 3) = 0 ∧ win0_4.index t (2 : Fin 3) = 0 :=
  (by decide +kernel : ∀ t : Fin grid0.N, _)

/-- A grid point as a batch number. -/
def batch (t : Fin cfg0.N) : Fin 16 := ⟨t.val, by have hN : cfg0.N = 16 := N_0; have := t.isLt; omega⟩

/-! ## The blocks a point sees -/

theorem rowsBlk_apply (c : Dev nD) (t : Fin cfg0.N) (n : Fin 1024) (d : Fin 128) :
    rowsBlk m c t (ix3 (0 : Fin 1) n d) = rowsArr m c (ix3 (batch t) n d) := by
  obtain ⟨e0, e1, e2, -⟩ := idx_facts t
  show V m c main_v0 (((cfg0.win 0).blk t).view.emb (ix3 (0 : Fin 1) n d)) = V m c main_v0 (ix3 (batch t) n d)
  refine congrArg (V m c main_v0) (funext fun a => Fin.ext ?_)
  match a with
  | ⟨0, _⟩ => show win0_0.index t (0 : Fin 3) * 1 + 1 * 0 = t.val; omega
  | ⟨1, _⟩ => show win0_0.index t (1 : Fin 3) * 1024 + 1 * n.val = n.val; omega
  | ⟨2, _⟩ => show win0_0.index t (2 : Fin 3) * 128 + 1 * d.val = d.val; omega

theorem codesBlk_apply (c : Dev nD) (t : Fin cfg0.N) (k : Fin 32) (d : Fin 128) :
    codesBlk m c t (ix2 k d) = codesArr m c (ix2 k d) := by
  obtain ⟨-, -, -, e0, e1, -⟩ := idx_facts t
  show V m c main_arg1 (((cfg0.win 1).blk t).view.emb (ix2 k d)) = V m c main_arg1 (ix2 k d)
  refine congrArg (V m c main_arg1) (funext fun a => Fin.ext ?_)
  match a with
  | ⟨0, _⟩ => show win0_1.index t (0 : Fin 2) * 32 + 1 * k.val = k.val; omega
  | ⟨1, _⟩ => show win0_1.index t (1 : Fin 2) * 128 + 1 * d.val = d.val; omega

theorem factorsBlk_apply (c : Dev nD) (t : Fin cfg0.N) (k : Fin 32) :
    factorsBlk m c t (ix1 k) = factorsArr m c (ix1 k) := by
  obtain ⟨-, -, -, -, -, e0, -⟩ := idx_facts t
  show V m c main_arg2 (((cfg0.win 2).blk t).view.emb (ix1 k)) = V m c main_arg2 (ix1 k)
  refine congrArg (V m c main_arg2) (funext fun a => Fin.ext ?_)
  match a with
  | ⟨0, _⟩ => show win0_2.index t (0 : Fin 1) * 32 + 1 * k.val = k.val; omega

theorem normsBlk_apply (c : Dev nD) (t : Fin cfg0.N) (k : Fin 32) :
    normsBlk m c t (ix1 k) = normsArr m c (ix1 k) := by
  obtain ⟨-, -, -, -, -, -, e0, -⟩ := idx_facts t
  show V m c main_v2 (((cfg0.win 3).blk t).view.emb (ix1 k)) = V m c main_v2 (ix1 k)
  refine congrArg (V m c main_v2) (funext fun a => Fin.ext ?_)
  match a with
  | ⟨0, _⟩ => show win0_3.index t (0 : Fin 1) * 32 + 1 * k.val = k.val; omega

/-! ## What the body leaves in the output's buffer, at coordinates -/

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The buffer the body leaves, at `(u, k, d)`: the layer on the blocks it loaded, the squared norms supplied. -/
theorem out_apply (P0 : Vec Ideal S1x1024x128 .f32) (P1 : Vec Ideal S32x128 .f32) (P2 P3 : Vec Ideal S32 .f32)
    (u : Fin 1) (k : Fin 32) (d : Fin 128) :
    out0_4 P0 P1 P2 P3 (ix3 u k d)
      = encodeWith (fun n d => P0 (ix3 (0 : Fin 1) n d)) (fun k d => P1 (ix2 k d)) (fun k => P2 (ix1 k)) (fun k => P3 (ix1 k)) k d := by
  unfold out0_4
  refine (Cert.KernelIdeal.Value.canon4_eq _ _ _ _ (ix3 u k d)).trans ?_
  show k0_pay2 (F := Ideal) (View.ld P0 r0_0) (View.ld P1 r0_1) (View.ld P2 r0_2) (View.ld P3 r0_2) (Cert.KernelIdeal.Value.ix4_0 (ix3 u k d)) = _
  rw [View.ld_unit_zero (S := S1x1024x128) hz3, View.ld_unit_zero (S := S32x128) hz2, View.ld_unit_zero (S := S32) hz1,
    View.ld_unit_zero (S := S32) hz1]
  have e : Cert.KernelIdeal.Value.ix4_0 (ix3 u k d) = ix2 k d :=
    funext fun a => Fin.ext (by match a with | ⟨0, _⟩ => rfl | ⟨1, _⟩ => rfl)
  rw [e]
  exact pay_apply P0 P1 P2 P3 k d

/-! ## What a point writes back is its block of the target -/

theorem flushed_eq (c : Dev nD) (t : Fin cfg0.N) :
    (dats m 0 c).flushed 4 t = ((cfg0.win 4).blk t).view.read (Elt Ideal) (target m c) := by
  rw [Cert.KernelIdeal.Value.flushed4]
  funext y
  obtain ⟨u, k, d, rfl⟩ : ∃ (u : Fin 1) (k : Fin 32) (d : Fin 128), y = ix3 u k d := ⟨y 0, y 1, y 2, eq_ix3 y⟩
  show out0_4 (rowsBlk m c t) (codesBlk m c t) (factorsBlk m c t) (normsBlk m c t) (ix3 u k d)
    = target m c (((cfg0.win 4).blk t).view.emb (ix3 u k d))
  refine (out_apply (rowsBlk m c t) (codesBlk m c t) (factorsBlk m c t) (normsBlk m c t) u k d).trans ?_
  obtain ⟨-, -, -, -, -, -, -, e0, e1, e2⟩ := idx_facts t
  have hemb : ((cfg0.win 4).blk t).view.emb (ix3 u k d) = ix3 (batch t) k d := by
    funext a; apply Fin.ext
    have hu : u.val = 0 := by omega
    match a with
    | ⟨0, _⟩ => show win0_4.index t (0 : Fin 3) * 1 + 1 * u.val = t.val; omega
    | ⟨1, _⟩ => show win0_4.index t (1 : Fin 3) * 32 + 1 * k.val = k.val; omega
    | ⟨2, _⟩ => show win0_4.index t (2 : Fin 3) * 128 + 1 * d.val = d.val; omega
  have hX : (fun (n : Fin 1024) (d : Fin 128) => rowsBlk m c t (ix3 (0 : Fin 1) n d)) = fun n d => rowsArr m c (ix3 (batch t) n d) :=
    funext fun n => funext fun d => rowsBlk_apply m c t n d
  have hC : (fun (k : Fin 32) (d : Fin 128) => codesBlk m c t (ix2 k d)) = fun k d => codesArr m c (ix2 k d) :=
    funext fun k => funext fun d => codesBlk_apply m c t k d
  have hS : (fun (k : Fin 32) => factorsBlk m c t (ix1 k)) = fun k => factorsArr m c (ix1 k) :=
    funext fun k => factorsBlk_apply m c t k
  have hQ : (fun (k : Fin 32) => normsBlk m c t (ix1 k)) = codeSq (fun k d => codesArr m c (ix2 k d)) :=
    funext fun k => (normsBlk_apply m c t k).trans (normsArr_apply m c k)
  rw [hemb, hX, hC, hS, hQ]
  rfl

/-! ## The blocks tile the result -/

theorem mem_blk (t : Fin cfg0.N) (i : S16x32x128.Idx) :
    i ∈ ((cfg0.win 4).blk t).view.set ↔ ∀ a : Fin 3, win0_4.index t a * S1x32x128.size a ≤ (i a).val ∧ (i a).val < win0_4.index t a * S1x32x128.size a + S1x32x128.size a := by
  show i ∈ ((View.whole main_v3).slice (win0_4.rect t)).set ↔ _
  rw [View.set_slice_whole, Rect.mem_set_unit]
  exact Iff.rfl

/-- Entry `(b, k, d)` of the result is in the block point `b` writes back. -/
theorem cover (i : S16x32x128.Idx) : ∃ t : Fin cfg0.N, (cfg0.win 4).flush t = true ∧ i ∈ ((cfg0.win 4).blk t).view.set := by
  have hN : cfg0.N = 16 := N_0
  have hi0 : (i 0).val < 16 := (i 0).isLt
  have hi1 : (i 1).val < 32 := (i 1).isLt
  have hi2 : (i 2).val < 128 := (i 2).isLt
  obtain ⟨t, ht⟩ : ∃ t : Fin cfg0.N, t.val = (i 0).val := ⟨⟨(i 0).val, by omega⟩, rfl⟩
  obtain ⟨-, -, -, -, -, -, -, e0, e1, e2⟩ := idx_facts t
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 32 ≤ (i 1).val ∧ (i 1).val < win0_4.index t (1 : Fin 3) * 32 + 32; omega
  | ⟨2, _⟩ => show win0_4.index t (2 : Fin 3) * 128 ≤ (i 2).val ∧ (i 2).val < win0_4.index t (2 : Fin 3) * 128 + 128; omega

/-! ## The array after the run, and the run -/

/-- After the run the result array holds the specification's result of the arguments. -/
theorem final (c : Dev nD) :
    (dats m 0 c).arrAt 4 cfg0.N
      = result (shapeCast S16x1024x128 (m ((c : Thread nD τ).loc main_arg0)) shapeCasts_S16x32x32x128_S16x1024x128)
          (m ((c : Thread nD τ).loc main_arg1)) (m ((c : Thread nD τ).loc main_arg2)) := by
  rw [(dats m 0 c).arrAt_eq_of_cover 4 (target m c) (fun t _ => flushed_eq m c t) cover]
  show result (rowsArr m c) (codesArr m c) (factorsArr m c) = _
  rw [rowsArr_eq, codesArr_eq, factorsArr_eq]

/-- The kernel's run: the result array at the specification's result of the arguments, the arguments unchanged. -/
theorem run : θ_run defs (onTc (τ := τ) (main (F := Ideal))) ⟨m, fun _ => 0, ρ⟩ fun r => ∀ c : Dev nD,
      r.2.mem ((c : Thread nD τ).loc main_v3)
        = result (shapeCast S16x1024x128 (m ((c : Thread nD τ).loc main_arg0)) shapeCasts_S16x32x32x128_S16x1024x128)
            (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.KernelIdeal.Enc

end
-- ==== Proof.RefValue.lean ====
/-
  What the reference computes, entry by entry: the layer of the specification on each batch.

  The reference's operations are read one at a time at explicit coordinates. Its broadcasts only re-read an entry at
  shuffled coordinates; its sums start from the zero word, which is the extended real `0`; its row maximum is a fold of
  `max` from `-∞` over the codewords' axis, then `max` with `-∞`; its two contractions are plain sums over the contracted
  coordinate. Stage by stage — squared norms, cross term, logits, row maximum, shifted exponentials, weights, residuals —
  each is the specification's function of batch `b`'s rows.
-/
import proofs.«135601_j88699664597510_1_alg».proof.Proof.Gen.ReferenceIdeal.Read
import proofs.«135601_j88699664597510_1_alg».proof.Proof.Spec

noncomputable section

namespace Cert.ReferenceIdeal.Enc

open Idealize.ShloMosaic Idealize.ShloMosaic.ValueIdx Cert.ReferenceIdeal Cert.ReferenceIdeal.Gen Cert.ReferenceIdeal.Read
open Cert.Encoding

variable (x0 : (⟨S16x32x32x128, .f32⟩ : BufTy).Contents (Elt Ideal)) (x1 : (⟨S32x128, .f32⟩ : BufTy).Contents (Elt Ideal))
  (x2 : (⟨S32, .f32⟩ : BufTy).Contents (Elt Ideal))

/-- Batch `b`'s rows, read off the input laid out as `[16, 1024, 128]`. -/
abbrev rows (b : Fin 16) : Fin 1024 → Fin 128 → EReal := fun n d => val_main_v0 (F := Ideal) x0 (ix3 b n d)
/-- The codewords by coordinates. -/
abbrev codes : Fin 32 → Fin 128 → EReal := fun k d => x1 (ix2 k d)
/-- The smoothing factors by coordinate. -/
abbrev factors : Fin 32 → EReal := fun k => x2 (ix1 k)

/-- The logits of batch `b`, as the specification states them. -/
abbrev logitsOf (b : Fin 16) : Fin 1024 → Fin 32 → EReal :=
  logit (rows x0 b) (codes x1) (factors x2) (codeSq (codes x1))

theorem rowSq_eq (b : Fin 16) (n : Fin 1024) : val_main_v2 (F := Ideal) x0 (ix2 b n) = rowSq (rows x0 b) n := by
  rw [val_main_v2_apply]
  show Ideal.ofBits .f32 0x00000000#32 + _ = _
  rw [Ideal.ofBits_zero_f32, zero_add]
  unfold rowSq
  refine Finset.sum_congr rfl fun d _ => ?_
  have e : idx_main_v2 (ix2 b n) d = ix3 b n d :=
    funext fun a => Fin.ext (by match a with | ⟨0, _⟩ => rfl | ⟨1, _⟩ => rfl | ⟨2, _⟩ => rfl)
  rw [val_main_v1_apply, e]
  rfl

theorem codeSq_eq (k : Fin 32) : val_main_v5 (F := Ideal) x1 (ix1 k) = codeSq (codes x1) k := by
  rw [val_main_v5_apply]
  show Ideal.ofBits .f32 0x00000000#32 + _ = _
  rw [Ideal.ofBits_zero_f32, zero_add]
  unfold codeSq
  refine Finset.sum_congr rfl fun d _ => ?_
  have e : idx_main_v5 (ix1 k) d = ix2 k d :=
    funext fun a => Fin.ext (by match a with | ⟨0, _⟩ => rfl | ⟨1, _⟩ => rfl)
  rw [val_main_v4_apply, e]
  rfl

theorem cross_eq (b : Fin 16) (n : Fin 1024) (k : Fin 32) :
    val_main_v6 (F := Ideal) x0 x1 (ix3 b n k) = cross (rows x0 b) (codes x1) n k := by
  rw [val_main_v6_apply]
  unfold cross
  refine Finset.sum_congr rfl fun d _ => ?_
  have el : lidx_main_v6 (ix3 b n k) d = ix3 b n d :=
    funext fun a => Fin.ext (by match a with | ⟨0, _⟩ => rfl | ⟨1, _⟩ => rfl | ⟨2, _⟩ => rfl)
  have er : ridx_main_v6 (ix3 b n k) d = ix2 k d :=
    funext fun a => Fin.ext (by match a with | ⟨0, _⟩ => rfl | ⟨1, _⟩ => rfl)
  rw [el, er]

theorem logit_eq (b : Fin 16) (n : Fin 1024) (k : Fin 32) :
    val_main_v16 (F := Ideal) x0 x1 x2 (ix3 b n k) = logitsOf x0 x1 x2 b n k := by
  have i1 : idx_main_v7 (idx_main_v15 (ix3 b n k)) = ix1 k :=
    funext fun a => Fin.ext (by match a with | ⟨0, _⟩ => rfl)
  have i2 : idx_main_v3 (idx_main_v10 (ix3 b n k)) = ix2 b n :=
    funext fun a => Fin.ext (by match a with | ⟨0, _⟩ => rfl | ⟨1, _⟩ => rfl)
  have i3 : idx_main_v12 (idx_main_v13 (ix3 b n k)) = ix1 k :=
    funext fun a => Fin.ext (by match a with | ⟨0, _⟩ => rfl)
  rw [val_main_v16_apply, val_main_v15_apply, val_main_v7_apply, val_main_v14_apply, val_main_v11_apply, val_main_v10_apply,
    val_main_v3_apply, val_main_v9_apply, val_main_v8_apply, val_main_cst_1_apply, val_main_v13_apply, val_main_v12_apply,
    i1, i2, i3, rowSq_eq, cross_eq, codeSq_eq]
  rfl

theorem rowMax_eq (b : Fin 16) (n : Fin 1024) :
    val_main_v19 (F := Ideal) x0 x1 x2 (ix2 b n) = rowMax (logitsOf x0 x1 x2 b) n := by
  have h17 : val_main_v17 (F := Ideal) x0 x1 x2 (ix2 b n)
      = (Finset.univ : Finset (Fin 32)).fold max negInf (fun k => val_main_v16 (F := Ideal) x0 x1 x2 (ix3 b n k)) := by
    unfold val_main_v17
    refine (Host.reduce_eq_fold_single (FloatOps.maximumf (F := Ideal) (φ := .f32)) _ _ reducesTo_S16x1024x32_S16x1024_d2
      (by decide) h_S_ (ix2 b n)).trans ?_
    exact congrArg ((Finset.univ : Finset (Fin 32)).fold max negInf) (funext fun k =>
      congrArg (val_main_v16 (F := Ideal) x0 x1 x2) (funext fun a => Fin.ext (by
        match a with | ⟨0, _⟩ => rfl | ⟨1, _⟩ => rfl | ⟨2, _⟩ => rfl)))
  rw [val_main_v19_apply, val_main_v18_apply, val_main_cst_3_apply, h17]
  unfold rowMax
  exact congrArg (max negInf) (congrArg ((Finset.univ : Finset (Fin 32)).fold max negInf)
    (funext fun k => logit_eq x0 x1 x2 b n k))

theorem expo_eq (b : Fin 16) (n : Fin 1024) (k : Fin 32) :
    val_main_v23 (F := Ideal) x0 x1 x2 (ix3 b n k) = expo (logitsOf x0 x1 x2 b) n k := by
  have i1 : idx_main_v20 (idx_main_v21 (ix3 b n k)) = ix2 b n :=
    funext fun a => Fin.ext (by match a with | ⟨0, _⟩ => rfl | ⟨1, _⟩ => rfl)
  rw [val_main_v23_apply, val_main_v22_apply, val_main_v21_apply, val_main_v20_apply, i1, rowMax_eq, logit_eq]
  rfl

theorem assign_eq (b : Fin 16) (n : Fin 1024) (k : Fin 32) :
    val_main_v27 (F := Ideal) x0 x1 x2 (ix3 b n k) = assign (logitsOf x0 x1 x2 b) n k := by
  have i1 : idx_main_v25 (idx_main_v26 (ix3 b n k)) = ix2 b n :=
    funext fun a => Fin.ext (by match a with | ⟨0, _⟩ => rfl | ⟨1, _⟩ => rfl)
  rw [val_main_v27_apply, val_main_v26_apply, val_main_v25_apply, i1, val_main_v24_apply, expo_eq]
  show Ideal.div _ (Ideal.ofBits .f32 0x00000000#32 + _) = _
  rw [Ideal.ofBits_zero_f32, zero_add]
  unfold assign
  refine congrArg (Ideal.div _) (Finset.sum_congr rfl fun k' _ => ?_)
  have e : idx_main_v24 (ix2 b n) k' = ix3 b n k' :=
    funext fun a => Fin.ext (by match a with | ⟨0, _⟩ => rfl | ⟨1, _⟩ => rfl | ⟨2, _⟩ => rfl)
  rw [e, expo_eq]

/-- The reference's result at `(b, k, d)` is the layer on batch `b`. -/
theorem result_eq (b : Fin 16) (k : Fin 32) (d : Fin 128) :
    val_main_v35 (F := Ideal) x0 x1 x2 (ix3 b k d) = encode (rows x0 b) (codes x1) (factors x2) k d := by
  have i1 : idx_main_v30 (idx_main_v32 (ix3 b k d)) = ix2 b k :=
    funext fun a => Fin.ext (by match a with | ⟨0, _⟩ => rfl | ⟨1, _⟩ => rfl)
  have i2 : idx_main_v31 (idx_main_v33 (ix3 b k d)) = ix2 k d :=
    funext fun a => Fin.ext (by match a with | ⟨0, _⟩ => rfl | ⟨1, _⟩ => rfl)
  have s1 : ∑ n : Fin 1024, val_main_v27 (F := Ideal) x0 x1 x2 (lidx_main_v28 (ix3 b k d) n) * val_main_v0 (F := Ideal) x0 (ridx_main_v28 (ix3 b k d) n)
      = ∑ n : Fin 1024, assign (logitsOf x0 x1 x2 b) n k * rows x0 b n d :=
    Finset.sum_congr rfl fun n _ => by
      have el : lidx_main_v28 (ix3 b k d) n = ix3 b n k :=
        funext fun a => Fin.ext (by match a with | ⟨0, _⟩ => rfl | ⟨1, _⟩ => rfl | ⟨2, _⟩ => rfl)
      have er : ridx_main_v28 (ix3 b k d) n = ix3 b n d :=
        funext fun a => Fin.ext (by match a with | ⟨0, _⟩ => rfl | ⟨1, _⟩ => rfl | ⟨2, _⟩ => rfl)
      rw [el, er, assign_eq]
  have s2 : ∑ n : Fin 1024, val_main_v27 (F := Ideal) x0 x1 x2 (idx_main_v29 (ix2 b k) n)
      = ∑ n : Fin 1024, assign (logitsOf x0 x1 x2 b) n k :=
    Finset.sum_congr rfl fun n _ => by
      have e : idx_main_v29 (ix2 b k) n = ix3 b n k :=
        funext fun a => Fin.ext (by match a with | ⟨0, _⟩ => rfl | ⟨1, _⟩ => rfl | ⟨2, _⟩ => rfl)
      rw [e, assign_eq]
  rw [val_main_v35_apply, val_main_v28_apply, val_main_v34_apply, val_main_v32_apply, val_main_v30_apply, i1,
    val_main_v29_apply, val_main_v33_apply, val_main_v31_apply, i2, s1, s2]
  show _ - (Ideal.ofBits .f32 0x00000000#32 + _) * _ = _
  rw [Ideal.ofBits_zero_f32, zero_add]
  rfl

/-- The reference's whole result is the specification's, of the input laid out as `[16, 1024, 128]`. -/
theorem value_eq : val_main_v35 (F := Ideal) x0 x1 x2 = Cert.Encoding.result (val_main_v0 (F := Ideal) x0) x1 x2 := by
  funext i
  obtain ⟨b, k, d, rfl⟩ : ∃ (b : Fin 16) (k : Fin 32) (d : Fin 128), i = ix3 b k d := ⟨i 0, i 1, i 2, eq_ix3 i⟩
  exact result_eq x0 x1 x2 b k d

end Cert.ReferenceIdeal.Enc

end
-- ==== Proof.lean ====
/-
  The encoding layer of a residual vector quantiser: the kernel against its reference, over the extended reals.

  For each of the 16 batches, 1024 rows `X n` of 128 features are softly assigned to 32 codewords `C k` with smoothing
  factors `s k`: the logit of row `n` for codeword `k` is `s k · (|X n|² - 2 · ⟨X n, C k⟩ + |C k|²)`, the weights are the
  softmax of the logits along the codewords (shifted by the row's largest logit), and the result is

      E b k d = Σ_n A n k · X n d - (Σ_n A n k) · C k d.

  The kernel runs one batch per grid point: it takes the cross term and the weighted sum of the rows as matrix products on
  operands narrowed to bf16 (the identity on the extended reals), receives the codewords' squared norms as an operand the
  host computed, and writes its `[32, 128]` block of the result. The reference computes the same quantities on whole
  arrays with two contractions. Both sides are one function of the arguments, `Cert.Encoding.result` (Proof/Spec.lean):
  only the spelling of the finite sums and of the row maximum differs, and a finite sum or a fold of `max` over one axis's
  coordinates does not depend on how it is grouped, so no law of arithmetic beyond that is used and the finiteness of the
  inputs is not needed.

    * Proof/Spec.lean          the layer as arithmetic over coordinates, and the whole result;
    * Proof/KernelOps.lean     the body's sums, lane maximum and matrix products at coordinates;
    * Proof/KernelValue.lean   the body's three stages at coordinates: its result is the layer on the block it loaded;
    * Proof/Blocks.lean        the blocks the points write back tile the result, which ends at the specification's;
    * Proof/RefValue.lean      the reference's operations, stage by stage, are the specification's;
    * Proof/LibKeepdims.lean   a column of per-row values kept with a trailing unit axis, read at an index.

  The frames of the two kernel programs and the kernel's frame run are the generated ones; the reference's frame is its
  generated run with the result dropped. No operation was rewritten when the kernel was idealized, so there is nothing to
  preserve.
-/
import proofs.«135601_j88699664597510_1_alg».proof.Defs
import proofs.«135601_j88699664597510_1_alg».proof.Proof.Gen.Kernel
import proofs.«135601_j88699664597510_1_alg».proof.Proof.Gen.Kernel.Skeleton
import proofs.«135601_j88699664597510_1_alg».proof.Proof.Gen.Kernel.Launch
import proofs.«135601_j88699664597510_1_alg».proof.Proof.Gen.Kernel.Points
import proofs.«135601_j88699664597510_1_alg».proof.Proof.Gen.Kernel.Frame
import proofs.«135601_j88699664597510_1_alg».proof.Proof.Gen.KernelIdeal
import proofs.«135601_j88699664597510_1_alg».proof.Proof.Gen.KernelIdeal.Skeleton
import proofs.«135601_j88699664597510_1_alg».proof.Proof.Gen.KernelIdeal.Launch
import proofs.«135601_j88699664597510_1_alg».proof.Proof.Gen.KernelIdeal.Points
import proofs.«135601_j88699664597510_1_alg».proof.Proof.Gen.KernelIdeal.Frame
import proofs.«135601_j88699664597510_1_alg».proof.Proof.Gen.ReferenceIdeal
import proofs.«135601_j88699664597510_1_alg».proof.Proof.Gen.Pre_finite_inputs
import proofs.«135601_j88699664597510_1_alg».proof.Proof.Gen.KernelIdeal.Value
import proofs.«135601_j88699664597510_1_alg».proof.Proof.Gen.ReferenceIdeal.Run
import proofs.«135601_j88699664597510_1_alg».proof.Proof.Gen.ReferenceIdeal.Read
import proofs.«135601_j88699664597510_1_alg».proof.Proof.Blocks
import proofs.«135601_j88699664597510_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments as they were: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments both programs end with the same result: the specification's, of the input
    re-laid as `[16, 1024, 128]`, the codewords and the smoothing factors. -/
theorem algebraic : Cert.algebraic_KernelIdeal_ReferenceIdeal := by
  intro m ρ m' ρ' _ hagree
  refine ⟨_, Cert.KernelIdeal.Enc.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v35_eq, Cert.ReferenceIdeal.Enc.value_eq, (hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
